-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S2000x128 : Shape := ⟨2, ![2000, 128]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S400x10000 : Shape := ⟨2, ![400, 10000]⟩
abbrev S400x64 : Shape := ⟨2, ![400, 64]⟩

abbrev nBuf : Space → Nat
  | .hbm => 19
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .bf16⟩
  | .hbm, ⟨9, _⟩ => ⟨S128x64, .bf16⟩
  | .hbm, ⟨10, _⟩ => ⟨S64x64, .bf16⟩
  | .hbm, ⟨11, _⟩ => ⟨S1x128, .f32⟩
  | .hbm, ⟨12, _⟩ => ⟨S1x64, .f32⟩
  | .hbm, ⟨13, _⟩ => ⟨S1x64, .f32⟩
  | .hbm, ⟨14, _⟩ => ⟨S10000x128, .bf16⟩
  | .hbm, ⟨15, _⟩ => ⟨S10000x64, .bf16⟩
  | .hbm, ⟨16, _⟩ => ⟨S10000x10000, .bf16⟩
  | .hbm, ⟨17, _⟩ => ⟨S10000x64, .bf16⟩
  | .hbm, ⟨18, _⟩ => ⟨S10000x64, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .bf16⟩
  | .local _ .vmem, ⟨4, _⟩ => ⟨S2000x128, .bf16⟩
  | .local _ .vmem, ⟨5, _⟩ => ⟨S200x10000, .f32⟩
  | .local _ .vmem, ⟨6, _⟩ => ⟨S200x10000, .f32⟩
  | .local _ .vmem, ⟨7, _⟩ => ⟨S10000x128, .bf16⟩
  | .local _ .vmem, ⟨8, _⟩ => ⟨S1x128, .f32⟩
  | .local _ .vmem, ⟨9, _⟩ => ⟨S128x64, .bf16⟩
  | .local _ .vmem, ⟨10, _⟩ => ⟨S200x64, .bf16⟩
  | .local _ .vmem, ⟨11, _⟩ => ⟨S200x64, .bf16⟩
  | .local _ .vmem, ⟨12, _⟩ => ⟨S200x10000, .bf16⟩
  | .local _ .vmem, ⟨13, _⟩ => ⟨S200x10000, .bf16⟩
  | .local _ .vmem, ⟨14, _⟩ => ⟨S400x10000, .bf16⟩
  | .local _ .vmem, ⟨15, _⟩ => ⟨S400x10000, .bf16⟩
  | .local _ .vmem, ⟨16, _⟩ => ⟨S10000x64, .bf16⟩
  | .local _ .vmem, ⟨17, _⟩ => ⟨S1x64, .f32⟩
  | .local _ .vmem, ⟨18, _⟩ => ⟨S64x64, .bf16⟩
  | .local _ .vmem, ⟨19, _⟩ => ⟨S400x64, .bf16⟩
  | .local _ .vmem, ⟨20, _⟩ => ⟨S400x64, .bf16⟩
  | .local _ .vmem, ⟨21, _⟩ => ⟨S400x10000, .bf16⟩
  | .local _ .vmem, ⟨22, _⟩ => ⟨S400x10000, .bf16⟩
  | .local _ .vmem, ⟨23, _⟩ => ⟨S10000x64, .bf16⟩
  | .local _ .vmem, ⟨24, _⟩ => ⟨S1x64, .f32⟩
  | .local _ .vmem, ⟨25, _⟩ => ⟨S400x64, .f32⟩
  | .local _ .vmem, ⟨26, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .bf16 = 32 ∨ (Rect.block (s := S10000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .bf16 = 32 ∨ (Rect.block (s := S10000x64) S200x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .bf16 = 32 ∨ (Rect.block (s := S10000x64) S400x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x64.size a ≤ S10000x64.size a
  hwx3_3 : ∀ i : grid3.Coords, EltTy.bits .f32 = 32 ∨ (Rect.block (s := S10000x64) S400x64.size (cc3_transform_3 i) (hinb3_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S200x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v7_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S400x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.Spec.lean ====
/-
  The three-layer graph convolution as one function of its eight arguments, over the extended reals.

  A layer sends node features `h` (one row per node) to `adj · (h · W) + b`: first the features are mixed by the
  weight matrix, then every node sums its neighbours' mixed features, weighted by the dense adjacency matrix, and the
  bias is added to every row. The first two layers end in `max (·, 0)`. Nothing is re-associated anywhere: the
  blocked program computes the same products in the same order of operations, only a block of rows at a time, so no
  algebraic law beyond "a block of rows of a product is the product of the block of rows" is needed.
-/
import Idealize.ShloMosaic.PureOps.Ideal
import Idealize.ShloMosaic.PureOps.Ideal.Laws
import Idealize.ShloMosaic.Lib.ValueIdx

noncomputable section

namespace Gcn

open Idealize.ShloMosaic Idealize.ShloMosaic.ValueIdx

/-- An `n × k` array of extended reals, indexed as the printed programs index a rank-2 tensor. -/
abbrev Mat (n k : Nat) : Type := (⟨2, ![n, k]⟩ : Shape).Idx → EReal

/-- The matrix product: entry `(r, q)` is the sum over `j` of `a (r, j) * b (j, q)`. -/
def mm {n k p : Nat} (a : Mat n k) (b : Mat k p) : Mat n p :=
  fun i => ∑ j : Fin k, a (ix2 (i 0 : Fin n) j) * b (ix2 j (i 1 : Fin p))

/-- One graph convolution after the weights are applied: `adj · s` with the bias `b q` added to column `q` of every row. -/
def conv {n h : Nat} (adj : Mat n n) (s : Mat n h) (b : Fin h → EReal) : Mat n h :=
  fun i => mm adj s i + b (i 1 : Fin h)

/-- The rectifier, entry by entry. -/
def relu {n h : Nat} (z : Mat n h) : Mat n h := fun i => max (z i) 0

/-- The whole network: two rectified layers and a last plain one. -/
def gcn (x : Mat 10000 128) (adj : Mat 10000 10000) (W1 : Mat 128 128) (b1 : Fin 128 → EReal) (W2 : Mat 128 64)
    (b2 : Fin 64 → EReal) (W3 : Mat 64 64) (b3 : Fin 64 → EReal) : Mat 10000 64 :=
  conv adj (mm (relu (conv adj (mm (relu (conv adj (mm x W1) b1)) W2) b2)) W3) b3

theorem mm_apply {n k p : Nat} (a : Mat n k) (b : Mat k p) (r : Fin n) (q : Fin p) :
    mm a b (ix2 r q) = ∑ j : Fin k, a (ix2 r j) * b (ix2 j q) := rfl

theorem conv_apply {n h : Nat} (adj : Mat n n) (s : Mat n h) (b : Fin h → EReal) (r : Fin n) (q : Fin h) :
    conv adj s b (ix2 r q) = (∑ j : Fin n, adj (ix2 r j) * s (ix2 j q)) + b q := rfl

theorem relu_apply {n h : Nat} (z : Mat n h) (i : (⟨2, ![n, h]⟩ : Shape).Idx) : relu z i = max (z i) 0 := rfl

end Gcn

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.Region0.lean ====
/-
  The first launch: the node features times the first weight matrix, 2000 rows at a time.

  Grid point `t` reads rows `2000 t … 2000 t + 1999` of the features and the whole weight matrix, and writes the
  product of that block of rows with the weights to the same rows of the result. Entry `(p, q)` of the block's
  product is the sum over `k` of `x (2000 t + p, k) * w (k, q)`, which is entry `(2000 t + p, q)` of the whole
  product; the five blocks cover all 10000 rows, so the array the launch leaves IS the whole product of the two
  arrays it found.
-/
import proofs.«131636_g4973572128804_cont_8to1_c_232_4_alg».proof.Proof.Gen.KernelIdeal.Frame
import proofs.«131636_g4973572128804_cont_8to1_c_232_4_alg».proof.Proof.Spec
import proofs.«131636_g4973572128804_cont_8to1_c_232_4_alg».proof.Proof.LibMatmul
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The node features as the launch finds them. -/
abbrev feats (c : Dev nD) : Gcn.Mat 10000 128 := V c main_arg0
/-- The first weight matrix as the launch finds it. -/
abbrev weights (c : Dev nD) : Gcn.Mat 128 128 := V c main_v0

theorem hz : (![0, 0] : Fin 2 → Nat) = fun _ => 0 := funext fun a => by fin_cases a <;> rfl

/-- The body's one stored value at entry `(p, q)`: the row `p` of its feature block against column `q` of the weights. -/
theorem pay_apply (x : Vec Ideal S2000x128 .f32) (w : Vec Ideal S128x128 .bf16) (p : Fin 2000) (q : Fin 128) :
    k0_pay1 (F := Ideal) x w (ix2 p q) = ∑ k : Fin 128, x (ix2 p k) * w (ix2 k q) := by
  unfold k0_pay1
  rw [shapeCast_self]
  exact LibMatmul.matmul_zero_plain_apply (φ₁ := .bf16) (φ₂ := .bf16) none _ _ p q

/-- If the block's row `p` is row `r` of `X` and the loaded weights are `W`, the stored entry is the whole product's at `(r, q)`. -/
theorem block_eq (x : Vec Ideal S2000x128 .f32) (w : Vec Ideal S128x128 .bf16) (X : Gcn.Mat 10000 128) (W : Gcn.Mat 128 128)
    (r : Fin 10000) (p : Fin 2000) (q : Fin 128)
    (hx : ∀ k : Fin 128, x (ix2 p k) = X (ix2 r k)) (hw : ∀ k : Fin 128, w (ix2 k q) = W (ix2 k q)) :
    k0_pay1 (F := Ideal) x w (ix2 p q) = Gcn.mm X W (ix2 r q) := by
  rw [pay_apply, Gcn.mm_apply]
  exact Finset.sum_congr rfl fun k _ => by rw [hx k, hw k]

/-- The printed index maps over the five grid points: the feature and result blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (Gcn.mm (feats V c) (weights V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  have ht : t.val < 5 := t.isLt
  funext j
  obtain ⟨p, q, rfl⟩ : ∃ (p : Fin 2000) (q : Fin 128), j = ix2 p q := ⟨j 0, j 1, eq_ix2 j⟩
  have hp : p.val < 2000 := p.isLt
  have hr : t.val * 2000 + p.val < 10000 := by omega
  show k0_pay1 (iblk0 V c 0 t) (iblk0 V c 1 t) (ix2 p q) = Gcn.mm (feats V c) (weights V c) (((cfg0.win 2).blk t).view.emb (ix2 p q))
  have he : ((cfg0.win 2).blk t).view.emb (ix2 p q) = ix2 (⟨t.val * 2000 + p.val, hr⟩ : Fin 10000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [he]
  refine block_eq (iblk0 V c 0 t) (iblk0 V c 1 t) (feats V c) (weights V c) ⟨_, hr⟩ p q (fun k => ?_) (fun k => ?_)
  · show feats V c (((cfg0.win 0).blk t).view.emb (ix2 p k)) = feats V c (ix2 ⟨_, hr⟩ k)
    refine congrArg (feats V c) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show weights V c (((cfg0.win 1).blk t).view.emb (ix2 k q)) = weights V c (ix2 k q)
    refine congrArg (weights V c) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the result array lies in point `t`'s block iff each coordinate lies in the block's range on its axis. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v6).slice (win0_2.rect t)).set ↔ _
  rw [View.set_slice_whole, Rect.mem_set_unit]
  exact Iff.rfl

/-- Row `r` lies in the block of point `r / 2000`. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : (i 0).val / 2000 < cfg0.N := by show (i 0).val / 2000 < 5; omega
  refine ⟨⟨(i 0).val / 2000, hN⟩, flush0_2 _, ?_⟩
  rw [mem_blk]
  obtain ⟨e0, e1, e2, e3, e4, e5⟩ := idx_facts ⟨(i 0).val / 2000, hN⟩
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [e4]; show (i 0).val / 2000 * 2000 ≤ (i 0).val ∧ (i 0).val < (i 0).val / 2000 * 2000 + 2000; omega
  | ⟨1, _⟩ => show win0_2.index ⟨(i 0).val / 2000, hN⟩ (1 : Fin 2) * 128 ≤ (i 1).val ∧ (i 1).val < win0_2.index ⟨(i 0).val / 2000, hN⟩ (1 : Fin 2) * 128 + 128; rw [e5]; omega

/-- THE ARRAY the launch leaves: the whole product of the features and the weights it found. -/
theorem final (c : Dev nD) : (dat0 V c).arrAt 2 cfg0.N = Gcn.mm (feats V c) (weights V c) :=
  (dat0 V c).arrAt_eq_of_cover 2 (Gcn.mm (feats V c) (weights V c)) (fun t _ => flushed_eq V c t) cover

end Cert.KernelIdeal.Region0

end
-- ==== Proof.Region1.lean ====
/-
  The second launch: the first layer and the second weights, 200 rows of the adjacency matrix at a time.

  Grid point `t` reads rows `200 t … 200 t + 199` of the adjacency matrix, the whole support array `s` left by the
  first launch, the bias row and the second weight matrix. It writes two things: the block of adjacency rows itself
  (a copy in a narrower format, the identity on the extended reals), and, to the same rows of the second result,
  `max (a · s + b, 0) · w` computed on the block. Entry `(p, q)` of that is the sum over `j` of
  `max ((∑ k, a (p, k) * s (k, j)) + b j, 0) * w (j, q)`, which is entry `(200 t + p, q)` of the whole-array
  expression, because row `p` of the block is row `200 t + p` of the matrix. The fifty blocks cover all rows.
-/
import proofs.«131636_g4973572128804_cont_8to1_c_232_4_alg».proof.Proof.Gen.KernelIdeal.Frame
import proofs.«131636_g4973572128804_cont_8to1_c_232_4_alg».proof.Proof.Spec
import proofs.«131636_g4973572128804_cont_8to1_c_232_4_alg».proof.Proof.LibMatmul
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The adjacency matrix as the launch finds it. -/
abbrev adj (c : Dev nD) : Gcn.Mat 10000 10000 := V c main_arg1
/-- The support array (features times first weights) as the launch finds it. -/
abbrev supp (c : Dev nD) : Gcn.Mat 10000 128 := V c main_v6
/-- The bias row as the launch finds it. -/
abbrev biasRow (c : Dev nD) : Gcn.Mat 1 128 := V c main_v3
/-- The second weight matrix as the launch finds it. -/
abbrev weights (c : Dev nD) : Gcn.Mat 128 64 := V c main_v1

/-- The bias as a function of the column. -/
abbrev bias (c : Dev nD) : Fin 128 → EReal := fun j => biasRow V c (ix2 (0 : Fin 1) j)

theorem hz : (![0, 0] : Fin 2 → Nat) = fun _ => 0 := funext fun a => by fin_cases a <;> rfl

/-- The value stored to the second result at entry `(p, q)`. -/
theorem pay_apply (a : Vec Ideal S200x10000 .f32) (s : Vec Ideal S10000x128 .bf16) (b : Vec Ideal S1x128 .f32) (w : Vec Ideal S128x64 .bf16)
    (p : Fin 200) (q : Fin 64) :
    k1_pay2 (F := Ideal) a s b w (ix2 p q)
      = ∑ j : Fin 128, max ((∑ k : Fin 10000, a (ix2 p k) * s (ix2 k j)) + b (ix2 (0 : Fin 1) j)) 0 * w (ix2 j q) := by
  unfold k1_pay2 k1_pay1
  rw [shapeCast_self, shapeCast_self, shapeCast_self]
  refine (LibMatmul.matmul_zero_plain_apply (φ₁ := .bf16) (φ₂ := .bf16) none _ _ p q).trans ?_
  refine Finset.sum_congr rfl fun j _ => ?_
  refine congrArg (· * w (ix2 j q)) ?_
  show max (_ + _) (Ideal.ofBits .f32 0x00000000#32) = _
  rw [Ideal.ofBits_zero_f32]
  refine congrArg (max · 0) ?_
  refine congrArg₂ (· + ·) (LibMatmul.matmul_zero_plain_apply (φ₁ := .bf16) (φ₂ := .bf16) none _ _ p j) ?_
  exact broadcastTo_apply b broadcasts_S1x128_S200x128 (ix2 p j) (ix2 (0 : Fin 1) j) (fun d => match d with
    | ⟨0, _⟩ => by show 0 = if (1 : Nat) = 1 then 0 else _; rw [if_pos rfl]
    | ⟨1, _⟩ => by show j.val = if (128 : Nat) = 1 then 0 else j.val; rw [if_neg (by decide)])

/-- If the block's row `p` is row `r` of `A` and the other loads are the whole arrays, the stored entry is the whole-array expression's at `(r, q)`. -/
theorem block_eq (a : Vec Ideal S200x10000 .f32) (s : Vec Ideal S10000x128 .bf16) (b : Vec Ideal S1x128 .f32) (w : Vec Ideal S128x64 .bf16)
    (A : Gcn.Mat 10000 10000) (S : Gcn.Mat 10000 128) (B : Fin 128 → EReal) (W : Gcn.Mat 128 64)
    (r : Fin 10000) (p : Fin 200) (q : Fin 64)
    (ha : ∀ k : Fin 10000, a (ix2 p k) = A (ix2 r k)) (hs : ∀ (k : Fin 10000) (j : Fin 128), s (ix2 k j) = S (ix2 k j))
    (hb : ∀ j : Fin 128, b (ix2 (0 : Fin 1) j) = B j) (hw : ∀ j : Fin 128, w (ix2 j q) = W (ix2 j q)) :
    k1_pay2 (F := Ideal) a s b w (ix2 p q) = Gcn.mm (Gcn.relu (Gcn.conv A S B)) W (ix2 r q) := by
  rw [pay_apply, Gcn.mm_apply]
  refine Finset.sum_congr rfl fun j _ => ?_
  rw [hw j, Gcn.relu_apply, Gcn.conv_apply, hb j]
  refine congrArg (fun z => max (z + B j) 0 * W (ix2 j q)) ?_
  exact Finset.sum_congr rfl fun k _ => by rw [ha k, hs k j]

/-- The printed index maps over the fifty grid points: the adjacency block and the two result blocks move with the
    point, the support array, the bias row and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point `t` writes back to the second result is block `t` of the whole-array expression. -/
theorem flushed4_eq (c : Dev nD) (t : Fin cfg1.N) :
    (dat1 V c).flushed 4 t = ((cfg1.win 4).blk t).view.read (Elt Ideal)
      (Gcn.mm (Gcn.relu (Gcn.conv (adj V c) (supp V c) (bias V c))) (weights V c)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x128) hz, View.ld_unit_zero (S := S1x128) hz,
    View.ld_unit_zero (S := S128x64) hz]
  obtain ⟨e0, e1, e2, e3, e4, e5, e6, e7, e8, e9, e10, e11⟩ := idx_facts t
  have ht : t.val < 50 := t.isLt
  funext j
  obtain ⟨p, q, rfl⟩ : ∃ (p : Fin 200) (q : Fin 64), j = ix2 p q := ⟨j 0, j 1, eq_ix2 j⟩
  have hp : p.val < 200 := p.isLt
  have hr : t.val * 200 + p.val < 10000 := by omega
  show k1_pay2 (iblk1 V c 0 t) (iblk1 V c 1 t) (iblk1 V c 2 t) (iblk1 V c 3 t) (ix2 p q)
    = Gcn.mm (Gcn.relu (Gcn.conv (adj V c) (supp V c) (bias V c))) (weights V c) (((cfg1.win 4).blk t).view.emb (ix2 p q))
  have he : ((cfg1.win 4).blk t).view.emb (ix2 p q) = ix2 (⟨t.val * 200 + p.val, hr⟩ : Fin 10000) q := by
    funext a; apply Fin.ext
    match a with
    | ⟨0, _⟩ => show win1_4.index t (0 : Fin 2) * 200 + 1 * p.val = t.val * 200 + p.val; omega
    | ⟨1, _⟩ => show win1_4.index t (1 : Fin 2) * 64 + 1 * q.val = q.val; omega
  rw [he]
  refine block_eq (iblk1 V c 0 t) (iblk1 V c 1 t) (iblk1 V c 2 t) (iblk1 V c 3 t) (adj V c) (supp V c) (bias V c) (weights V c)
    ⟨_, hr⟩ p q (fun k => ?_) (fun k j => ?_) (fun j => ?_) (fun j => ?_)
  · show adj V c (((cfg1.win 0).blk t).view.emb (ix2 p k)) = adj V c (ix2 ⟨_, hr⟩ k)
    refine congrArg (adj V c) (funext fun a => Fin.ext ?_)
    match a with
    | ⟨0, _⟩ => show win1_0.index t (0 : Fin 2) * 200 + 1 * p.val = t.val * 200 + p.val; omega
    | ⟨1, _⟩ => show win1_0.index t (1 : Fin 2) * 10000 + 1 * k.val = k.val; omega
  · show supp V c (((cfg1.win 1).blk t).view.emb (ix2 k j)) = supp V c (ix2 k j)
    refine congrArg (supp V c) (funext fun a => Fin.ext ?_)
    match a with
    | ⟨0, _⟩ => show win1_1.index t (0 : Fin 2) * 10000 + 1 * k.val = k.val; omega
    | ⟨1, _⟩ => show win1_1.index t (1 : Fin 2) * 128 + 1 * j.val = j.val; omega
  · show biasRow V c (((cfg1.win 2).blk t).view.emb (ix2 (0 : Fin 1) j)) = biasRow V c (ix2 (0 : Fin 1) j)
    refine congrArg (biasRow V c) (funext fun a => Fin.ext ?_)
    match a with
    | ⟨0, _⟩ => show win1_2.index t (0 : Fin 2) * 1 + 1 * 0 = 0; omega
    | ⟨1, _⟩ => show win1_2.index t (1 : Fin 2) * 128 + 1 * j.val = j.val; omega
  · show weights V c (((cfg1.win 3).blk t).view.emb (ix2 j q)) = weights V c (ix2 j q)
    refine congrArg (weights V c) (funext fun a => Fin.ext ?_)
    match a with
    | ⟨0, _⟩ => show win1_3.index t (0 : Fin 2) * 128 + 1 * j.val = j.val; omega
    | ⟨1, _⟩ => show win1_3.index t (1 : Fin 2) * 64 + 1 * q.val = q.val; omega

/-- What point `t` writes back to the adjacency copy is block `t` of the adjacency matrix. -/
theorem flushed5_eq (c : Dev nD) (t : Fin cfg1.N) :
    (dat1 V c).flushed 5 t = ((cfg1.win 5).blk t).view.read (Elt Ideal) (adj V c) := by
  show (cfg1.win 5).cut (grid1.coords t) ((dat1 V c).after 5 t) = _
  rw [after1_5]
  unfold out1_5
  rw [View.canon_unit_zero hz]
  simp only [View.ld_unit_zero (S := S200x10000) hz]
  obtain ⟨e0, e1, e2, e3, e4, e5, e6, e7, e8, e9, e10, e11⟩ := idx_facts t
  funext j
  obtain ⟨p, k, rfl⟩ : ∃ (p : Fin 200) (k : Fin 10000), j = ix2 p k := ⟨j 0, j 1, eq_ix2 j⟩
  show adj V c (((cfg1.win 0).blk t).view.emb (ix2 p k)) = adj V c (((cfg1.win 5).blk t).view.emb (ix2 p k))
  refine congrArg (adj V c) (funext fun a => Fin.ext ?_)
  match a with
  | ⟨0, _⟩ => show win1_0.index t (0 : Fin 2) * 200 + 1 * p.val = win1_5.index t (0 : Fin 2) * 200 + 1 * p.val; omega
  | ⟨1, _⟩ => show win1_0.index t (1 : Fin 2) * 10000 + 1 * k.val = win1_5.index t (1 : Fin 2) * 10000 + 1 * k.val; omega

/-- Membership in point `t`'s block of the second result, by coordinates. -/
theorem mem_blk4 (t : Fin cfg1.N) (i : S10000x64.Idx) :
    i ∈ ((cfg1.win 4).blk t).view.set ↔ ∀ a : Fin 2, win1_4.index t a * S200x64.size a ≤ (i a).val ∧ (i a).val < win1_4.index t a * S200x64.size a + S200x64.size a := by
  show i ∈ ((View.whole main_v7_0).slice (win1_4.rect t)).set ↔ _
  rw [View.set_slice_whole, Rect.mem_set_unit]
  exact Iff.rfl

/-- Membership in point `t`'s block of the adjacency copy, by coordinates. -/
theorem mem_blk5 (t : Fin cfg1.N) (i : S10000x10000.Idx) :
    i ∈ ((cfg1.win 5).blk t).view.set ↔ ∀ a : Fin 2, win1_5.index t a * S200x10000.size a ≤ (i a).val ∧ (i a).val < win1_5.index t a * S200x10000.size a + S200x10000.size a := by
  show i ∈ ((View.whole main_v7_1).slice (win1_5.rect t)).set ↔ _
  rw [View.set_slice_whole, Rect.mem_set_unit]
  exact Iff.rfl

/-- Row `r` of the second result lies in the block of point `r / 200`. -/
theorem cover4 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  have hN : (i 0).val / 200 < cfg1.N := by show (i 0).val / 200 < 50; omega
  refine ⟨⟨(i 0).val / 200, hN⟩, flush1_4 _, ?_⟩
  rw [mem_blk4]
  obtain ⟨e0, e1, e2, e3, e4, e5, e6, e7, e8, e9, e10, e11⟩ := idx_facts ⟨(i 0).val / 200, hN⟩
  intro a
  match a with
  | ⟨0, _⟩ => show win1_4.index ⟨(i 0).val / 200, hN⟩ (0 : Fin 2) * 200 ≤ (i 0).val ∧ (i 0).val < win1_4.index ⟨(i 0).val / 200, hN⟩ (0 : Fin 2) * 200 + 200; rw [e8]; show (i 0).val / 200 * 200 ≤ (i 0).val ∧ (i 0).val < (i 0).val / 200 * 200 + 200; omega
  | ⟨1, _⟩ => show win1_4.index ⟨(i 0).val / 200, hN⟩ (1 : Fin 2) * 64 ≤ (i 1).val ∧ (i 1).val < win1_4.index ⟨(i 0).val / 200, hN⟩ (1 : Fin 2) * 64 + 64; rw [e9]; omega

/-- Row `r` of the adjacency copy lies in the block of point `r / 200`. -/
theorem cover5 (i : S10000x10000.Idx) : ∃ t : Fin cfg1.N, (cfg1.win 5).flush t = true ∧ i ∈ ((cfg1.win 5).blk t).view.set := by
  have hi0 : (i 0).val < 10000 := (i 0).isLt
  have hi1 : (i 1).val < 10000 := (i 1).isLt
  have hN : (i 0).val / 200 < cfg1.N := by show (i 0).val / 200 < 50; omega
  refine ⟨⟨(i 0).val / 200, hN⟩, flush1_5 _, ?_⟩
  rw [mem_blk5]
  obtain ⟨e0, e1, e2, e3, e4, e5, e6, e7, e8, e9, e10, e11⟩ := idx_facts ⟨(i 0).val / 200, hN⟩
  intro a
  match a with
  | ⟨0, _⟩ => show win1_5.index ⟨(i 0).val / 200, hN⟩ (0 : Fin 2) * 200 ≤ (i 0).val ∧ (i 0).val < win1_5.index ⟨(i 0).val / 200, hN⟩ (0 : Fin 2) * 200 + 200; rw [e10]; show (i 0).val / 200 * 200 ≤ (i 0).val ∧ (i 0).val < (i 0).val / 200 * 200 + 200; omega
  | ⟨1, _⟩ => show win1_5.index ⟨(i 0).val / 200, hN⟩ (1 : Fin 2) * 10000 ≤ (i 1).val ∧ (i 1).val < win1_5.index ⟨(i 0).val / 200, hN⟩ (1 : Fin 2) * 10000 + 10000; rw [e11]; omega

/-- THE SECOND RESULT the launch leaves: the rectified first layer times the second weights, of the arrays it found. -/
theorem final4 (c : Dev nD) : (dat1 V c).arrAt 4 cfg1.N
    = Gcn.mm (Gcn.relu (Gcn.conv (adj V c) (supp V c) (bias V c))) (weights V c) :=
  (dat1 V c).arrAt_eq_of_cover 4 (Gcn.mm (Gcn.relu (Gcn.conv (adj V c) (supp V c) (bias V c))) (weights V c))
    (fun t _ => flushed4_eq V c t) cover4

/-- THE ADJACENCY COPY the launch leaves is the adjacency matrix it found. -/
theorem final5 (c : Dev nD) : (dat1 V c).arrAt 5 cfg1.N = adj V c :=
  (dat1 V c).arrAt_eq_of_cover 5 (adj V c) (fun t _ => flushed5_eq V c t) cover5

end Cert.KernelIdeal.Region1

end
-- ==== Proof.Region2.lean ====
/-
  The third launch: the second layer and the third weights, 400 rows of the adjacency copy at a time.

  Grid point `t` reads rows `400 t … 400 t + 399` of the adjacency copy, the whole support array left by the second
  launch, the second bias row and the third weight matrix, and writes `max (a · s + b, 0) · w` of the block to the same
  rows of its result. Entry `(p, q)` of that is the sum over `j` of `max ((∑ k, a (p, k) * s (k, j)) + b j, 0) * w (j, q)`,
  entry `(400 t + p, q)` of the whole-array expression. The twenty-five blocks cover all rows.
-/
import proofs.«131636_g4973572128804_cont_8to1_c_232_4_alg».proof.Proof.Gen.KernelIdeal.Frame
import proofs.«131636_g4973572128804_cont_8to1_c_232_4_alg».proof.Proof.Spec
import proofs.«131636_g4973572128804_cont_8to1_c_232_4_alg».proof.Proof.LibMatmul
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The adjacency copy as the launch finds it. -/
abbrev adj (c : Dev nD) : Gcn.Mat 10000 10000 := V c main_v7_1
/-- The support array (first layer times second weights) as the launch finds it. -/
abbrev supp (c : Dev nD) : Gcn.Mat 10000 64 := V c main_v7_0
/-- The bias row as the launch finds it. -/
abbrev biasRow (c : Dev nD) : Gcn.Mat 1 64 := V c main_v4
/-- The third weight matrix as the launch finds it. -/
abbrev weights (c : Dev nD) : Gcn.Mat 64 64 := V c main_v2

/-- The bias as a function of the column. -/
abbrev bias (c : Dev nD) : Fin 64 → EReal := fun j => biasRow V c (ix2 (0 : Fin 1) j)

theorem hz : (![0, 0] : Fin 2 → Nat) = fun _ => 0 := funext fun a => by fin_cases a <;> rfl

/-- The stored value at entry `(p, q)`. -/
theorem pay_apply (a : Vec Ideal S400x10000 .bf16) (s : Vec Ideal S10000x64 .bf16) (b : Vec Ideal S1x64 .f32) (w : Vec Ideal S64x64 .bf16)
    (p : Fin 400) (q : Fin 64) :
    k2_pay1 (F := Ideal) a s b w (ix2 p q)
      = ∑ j : Fin 64, max ((∑ k : Fin 10000, a (ix2 p k) * s (ix2 k j)) + b (ix2 (0 : Fin 1) j)) 0 * w (ix2 j q) := by
  unfold k2_pay1
  rw [shapeCast_self, shapeCast_self, shapeCast_self, shapeCast_self]
  refine (LibMatmul.matmul_zero_plain_apply (φ₁ := .bf16) (φ₂ := .bf16) none _ _ p q).trans ?_
  refine Finset.sum_congr rfl fun j _ => ?_
  refine congrArg (· * w (ix2 j q)) ?_
  show max (_ + _) (Ideal.ofBits .f32 0x00000000#32) = _
  rw [Ideal.ofBits_zero_f32]
  refine congrArg (max · 0) ?_
  refine congrArg₂ (· + ·) (LibMatmul.matmul_zero_plain_apply (φ₁ := .bf16) (φ₂ := .bf16) none _ _ p j) ?_
  exact broadcastTo_apply b broadcasts_S1x64_S400x64 (ix2 p j) (ix2 (0 : Fin 1) j) (fun d => match d with
    | ⟨0, _⟩ => by show 0 = if (1 : Nat) = 1 then 0 else _; rw [if_pos rfl]
    | ⟨1, _⟩ => by show j.val = if (64 : Nat) = 1 then 0 else j.val; rw [if_neg (by decide)])

/-- If the block's row `p` is row `r` of `A` and the other loads are the whole arrays, the stored entry is the whole-array expression's at `(r, q)`. -/
theorem block_eq (a : Vec Ideal S400x10000 .bf16) (s : Vec Ideal S10000x64 .bf16) (b : Vec Ideal S1x64 .f32) (w : Vec Ideal S64x64 .bf16)
    (A : Gcn.Mat 10000 10000) (S : Gcn.Mat 10000 64) (B : Fin 64 → EReal) (W : Gcn.Mat 64 64)
    (r : Fin 10000) (p : Fin 400) (q : Fin 64)
    (ha : ∀ k : Fin 10000, a (ix2 p k) = A (ix2 r k)) (hs : ∀ (k : Fin 10000) (j : Fin 64), s (ix2 k j) = S (ix2 k j))
    (hb : ∀ j : Fin 64, b (ix2 (0 : Fin 1) j) = B j) (hw : ∀ j : Fin 64, w (ix2 j q) = W (ix2 j q)) :
    k2_pay1 (F := Ideal) a s b w (ix2 p q) = Gcn.mm (Gcn.relu (Gcn.conv A S B)) W (ix2 r q) := by
  rw [pay_apply, Gcn.mm_apply]
  refine Finset.sum_congr rfl fun j _ => ?_
  rw [hw j, Gcn.relu_apply, Gcn.conv_apply, hb j]
  refine congrArg (fun z => max (z + B j) 0 * W (ix2 j q)) ?_
  exact Finset.sum_congr rfl fun k _ => by rw [ha k, hs k j]

/-- The printed index maps over the twenty-five grid points: the adjacency block and the result block move with the
    point, the support array, the bias row and the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the whole-array expression. -/
theorem flushed_eq (c : Dev nD) (t : Fin cfg2.N) :
    (dat2 V c).flushed 4 t = ((cfg2.win 4).blk t).view.read (Elt Ideal)
      (Gcn.mm (Gcn.relu (Gcn.conv (adj V c) (supp V c) (bias V c))) (weights V c)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x64) hz, View.ld_unit_zero (S := S1x64) hz,
    View.ld_unit_zero (S := S64x64) hz]
  obtain ⟨e0, e1, e2, e3, e4, e5, e6, e7, e8, e9⟩ := idx_facts t
  have ht : t.val < 25 := t.isLt
  funext j
  obtain ⟨p, q, rfl⟩ : ∃ (p : Fin 400) (q : Fin 64), j = ix2 p q := ⟨j 0, j 1, eq_ix2 j⟩
  have hp : p.val < 400 := p.isLt
  have hr : t.val * 400 + p.val < 10000 := by omega
  show k2_pay1 (iblk2 V c 0 t) (iblk2 V c 1 t) (iblk2 V c 2 t) (iblk2 V c 3 t) (ix2 p q)
    = Gcn.mm (Gcn.relu (Gcn.conv (adj V c) (supp V c) (bias V c))) (weights V c) (((cfg2.win 4).blk t).view.emb (ix2 p q))
  have he : ((cfg2.win 4).blk t).view.emb (ix2 p q) = ix2 (⟨t.val * 400 + p.val, hr⟩ : Fin 10000) q := by
    funext a; apply Fin.ext
    match a with
    | ⟨0, _⟩ => show win2_4.index t (0 : Fin 2) * 400 + 1 * p.val = t.val * 400 + p.val; omega
    | ⟨1, _⟩ => show win2_4.index t (1 : Fin 2) * 64 + 1 * q.val = q.val; omega
  rw [he]
  refine block_eq (iblk2 V c 0 t) (iblk2 V c 1 t) (iblk2 V c 2 t) (iblk2 V c 3 t) (adj V c) (supp V c) (bias V c) (weights V c)
    ⟨_, hr⟩ p q (fun k => ?_) (fun k j => ?_) (fun j => ?_) (fun j => ?_)
  · show adj V c (((cfg2.win 0).blk t).view.emb (ix2 p k)) = adj V c (ix2 ⟨_, hr⟩ k)
    refine congrArg (adj V c) (funext fun a => Fin.ext ?_)
    match a with
    | ⟨0, _⟩ => show win2_0.index t (0 : Fin 2) * 400 + 1 * p.val = t.val * 400 + p.val; omega
    | ⟨1, _⟩ => show win2_0.index t (1 : Fin 2) * 10000 + 1 * k.val = k.val; omega
  · show supp V c (((cfg2.win 1).blk t).view.emb (ix2 k j)) = supp V c (ix2 k j)
    refine congrArg (supp V c) (funext fun a => Fin.ext ?_)
    match a with
    | ⟨0, _⟩ => show win2_1.index t (0 : Fin 2) * 10000 + 1 * k.val = k.val; omega
    | ⟨1, _⟩ => show win2_1.index t (1 : Fin 2) * 64 + 1 * j.val = j.val; omega
  · show biasRow V c (((cfg2.win 2).blk t).view.emb (ix2 (0 : Fin 1) j)) = biasRow V c (ix2 (0 : Fin 1) j)
    refine congrArg (biasRow V c) (funext fun a => Fin.ext ?_)
    match a with
    | ⟨0, _⟩ => show win2_2.index t (0 : Fin 2) * 1 + 1 * 0 = 0; omega
    | ⟨1, _⟩ => show win2_2.index t (1 : Fin 2) * 64 + 1 * j.val = j.val; omega
  · show weights V c (((cfg2.win 3).blk t).view.emb (ix2 j q)) = weights V c (ix2 j q)
    refine congrArg (weights V c) (funext fun a => Fin.ext ?_)
    match a with
    | ⟨0, _⟩ => show win2_3.index t (0 : Fin 2) * 64 + 1 * j.val = j.val; omega
    | ⟨1, _⟩ => show win2_3.index t (1 : Fin 2) * 64 + 1 * q.val = q.val; omega

/-- Membership in point `t`'s block of the result, by coordinates. -/
theorem mem_blk (t : Fin cfg2.N) (i : S10000x64.Idx) :
    i ∈ ((cfg2.win 4).blk t).view.set ↔ ∀ a : Fin 2, win2_4.index t a * S400x64.size a ≤ (i a).val ∧ (i a).val < win2_4.index t a * S400x64.size a + S400x64.size a := by
  show i ∈ ((View.whole main_v8).slice (win2_4.rect t)).set ↔ _
  rw [View.set_slice_whole, Rect.mem_set_unit]
  exact Iff.rfl

/-- Row `r` lies in the block of point `r / 400`. -/
theorem cover (i : S10000x64.Idx) : ∃ t : Fin cfg2.N, (cfg2.win 4).flush t = true ∧ i ∈ ((cfg2.win 4).blk t).view.set := by
  have hi0 : (i 0).val < 10000 := (i 0).isLt
  have hi1 : (i 1).val < 64 := (i 1).isLt
  have hN : (i 0).val / 400 < cfg2.N := by show (i 0).val / 400 < 25; omega
  refine ⟨⟨(i 0).val / 400, hN⟩, flush2_4 _, ?_⟩
  rw [mem_blk]
  obtain ⟨e0, e1, e2, e3, e4, e5, e6, e7, e8, e9⟩ := idx_facts ⟨(i 0).val / 400, hN⟩
  intro a
  match a with
  | ⟨0, _⟩ => show win2_4.index ⟨(i 0).val / 400, hN⟩ (0 : Fin 2) * 400 ≤ (i 0).val ∧ (i 0).val < win2_4.index ⟨(i 0).val / 400, hN⟩ (0 : Fin 2) * 400 + 400; rw [e8]; show (i 0).val / 400 * 400 ≤ (i 0).val ∧ (i 0).val < (i 0).val / 400 * 400 + 400; omega
  | ⟨1, _⟩ => show win2_4.index ⟨(i 0).val / 400, hN⟩ (1 : Fin 2) * 64 ≤ (i 1).val ∧ (i 1).val < win2_4.index ⟨(i 0).val / 400, hN⟩ (1 : Fin 2) * 64 + 64; rw [e9]; omega

/-- THE RESULT the launch leaves: the rectified second layer times the third weights, of the arrays it found. -/
theorem final (c : Dev nD) : (dat2 V c).arrAt 4 cfg2.N
    = Gcn.mm (Gcn.relu (Gcn.conv (adj V c) (supp V c) (bias V c))) (weights V c) :=
  (dat2 V c).arrAt_eq_of_cover 4 (Gcn.mm (Gcn.relu (Gcn.conv (adj V c) (supp V c) (bias V c))) (weights V c))
    (fun t _ => flushed_eq V c t) cover

end Cert.KernelIdeal.Region2

end
-- ==== Proof.Region3.lean ====
/-
  The last launch: the third layer, 400 rows of the adjacency copy at a time.

  Grid point `t` reads rows `400 t … 400 t + 399` of the adjacency copy, the whole support array left by the third
  launch and the third bias row, and writes `a · s + b` of the block to the same rows of the program's result. Entry
  `(p, q)` of that is `(∑ k, a (p, k) * s (k, q)) + b q`, entry `(400 t + p, q)` of the whole-array expression. The
  twenty-five blocks cover all rows.
-/
import proofs.«131636_g4973572128804_cont_8to1_c_232_4_alg».proof.Proof.Gen.KernelIdeal.Frame
import proofs.«131636_g4973572128804_cont_8to1_c_232_4_alg».proof.Proof.Spec
import proofs.«131636_g4973572128804_cont_8to1_c_232_4_alg».proof.Proof.LibMatmul
import Idealize.ShloMosaic.Lib.Pipeline.Value
import Idealize.ShloMosaic.Lib.ValueIdx

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The adjacency copy as the launch finds it. -/
abbrev adj (c : Dev nD) : Gcn.Mat 10000 10000 := V c main_v7_1
/-- The support array (second layer times third weights) as the launch finds it. -/
abbrev supp (c : Dev nD) : Gcn.Mat 10000 64 := V c main_v8
/-- The bias row as the launch finds it. -/
abbrev biasRow (c : Dev nD) : Gcn.Mat 1 64 := V c main_v5

/-- The bias as a function of the column. -/
abbrev bias (c : Dev nD) : Fin 64 → EReal := fun j => biasRow V c (ix2 (0 : Fin 1) j)

theorem hz : (![0, 0] : Fin 2 → Nat) = fun _ => 0 := funext fun a => by fin_cases a <;> rfl

/-- The stored value at entry `(p, q)`. -/
theorem pay_apply (a : Vec Ideal S400x10000 .bf16) (s : Vec Ideal S10000x64 .bf16) (b : Vec Ideal S1x64 .f32) (p : Fin 400) (q : Fin 64) :
    k3_pay1 (F := Ideal) a s b (ix2 p q) = (∑ k : Fin 10000, a (ix2 p k) * s (ix2 k q)) + b (ix2 (0 : Fin 1) q) := by
  unfold k3_pay1
  rw [shapeCast_self, shapeCast_self, shapeCast_self]
  refine congrArg₂ (· + ·) (LibMatmul.matmul_zero_plain_apply (φ₁ := .bf16) (φ₂ := .bf16) none _ _ p q) ?_
  exact broadcastTo_apply b broadcasts_S1x64_S400x64 (ix2 p q) (ix2 (0 : Fin 1) q) (fun d => match d with
    | ⟨0, _⟩ => by show 0 = if (1 : Nat) = 1 then 0 else _; rw [if_pos rfl]
    | ⟨1, _⟩ => by show q.val = if (64 : Nat) = 1 then 0 else q.val; rw [if_neg (by decide)])

/-- If the block's row `p` is row `r` of `A` and the other loads are the whole arrays, the stored entry is the whole-array expression's at `(r, q)`. -/
theorem block_eq (a : Vec Ideal S400x10000 .bf16) (s : Vec Ideal S10000x64 .bf16) (b : Vec Ideal S1x64 .f32)
    (A : Gcn.Mat 10000 10000) (S : Gcn.Mat 10000 64) (B : Fin 64 → EReal)
    (r : Fin 10000) (p : Fin 400) (q : Fin 64)
    (ha : ∀ k : Fin 10000, a (ix2 p k) = A (ix2 r k)) (hs : ∀ k : Fin 10000, s (ix2 k q) = S (ix2 k q))
    (hb : b (ix2 (0 : Fin 1) q) = B q) :
    k3_pay1 (F := Ideal) a s b (ix2 p q) = Gcn.conv A S B (ix2 r q) := by
  rw [pay_apply, Gcn.conv_apply, hb]
  refine congrArg (· + B q) ?_
  exact Finset.sum_congr rfl fun k _ => by rw [ha k, hs k]

/-- The printed index maps over the twenty-five grid points: the adjacency block and the result block move with the
    point, the support array and the bias row stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole-array expression. -/
theorem flushed_eq (c : Dev nD) (t : Fin cfg3.N) :
    (dat3 V c).flushed 3 t = ((cfg3.win 3).blk t).view.read (Elt Ideal) (Gcn.conv (adj V c) (supp V c) (bias V c)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x64) hz, View.ld_unit_zero (S := S1x64) hz]
  obtain ⟨e0, e1, e2, e3, e4, e5, e6, e7⟩ := idx_facts t
  have ht : t.val < 25 := t.isLt
  funext j
  obtain ⟨p, q, rfl⟩ : ∃ (p : Fin 400) (q : Fin 64), j = ix2 p q := ⟨j 0, j 1, eq_ix2 j⟩
  have hp : p.val < 400 := p.isLt
  have hr : t.val * 400 + p.val < 10000 := by omega
  show k3_pay1 (iblk3 V c 0 t) (iblk3 V c 1 t) (iblk3 V c 2 t) (ix2 p q)
    = Gcn.conv (adj V c) (supp V c) (bias V c) (((cfg3.win 3).blk t).view.emb (ix2 p q))
  have he : ((cfg3.win 3).blk t).view.emb (ix2 p q) = ix2 (⟨t.val * 400 + p.val, hr⟩ : Fin 10000) q := by
    funext a; apply Fin.ext
    match a with
    | ⟨0, _⟩ => show win3_3.index t (0 : Fin 2) * 400 + 1 * p.val = t.val * 400 + p.val; omega
    | ⟨1, _⟩ => show win3_3.index t (1 : Fin 2) * 64 + 1 * q.val = q.val; omega
  rw [he]
  refine block_eq (iblk3 V c 0 t) (iblk3 V c 1 t) (iblk3 V c 2 t) (adj V c) (supp V c) (bias V c)
    ⟨_, hr⟩ p q (fun k => ?_) (fun k => ?_) ?_
  · show adj V c (((cfg3.win 0).blk t).view.emb (ix2 p k)) = adj V c (ix2 ⟨_, hr⟩ k)
    refine congrArg (adj V c) (funext fun a => Fin.ext ?_)
    match a with
    | ⟨0, _⟩ => show win3_0.index t (0 : Fin 2) * 400 + 1 * p.val = t.val * 400 + p.val; omega
    | ⟨1, _⟩ => show win3_0.index t (1 : Fin 2) * 10000 + 1 * k.val = k.val; omega
  · show supp V c (((cfg3.win 1).blk t).view.emb (ix2 k q)) = supp V c (ix2 k q)
    refine congrArg (supp V c) (funext fun a => Fin.ext ?_)
    match a with
    | ⟨0, _⟩ => show win3_1.index t (0 : Fin 2) * 10000 + 1 * k.val = k.val; omega
    | ⟨1, _⟩ => show win3_1.index t (1 : Fin 2) * 64 + 1 * q.val = q.val; omega
  · show biasRow V c (((cfg3.win 2).blk t).view.emb (ix2 (0 : Fin 1) q)) = biasRow V c (ix2 (0 : Fin 1) q)
    refine congrArg (biasRow V c) (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega

/-- Membership in point `t`'s block of the result, by coordinates. -/
theorem mem_blk (t : Fin cfg3.N) (i : S10000x64.Idx) :
    i ∈ ((cfg3.win 3).blk t).view.set ↔ ∀ a : Fin 2, win3_3.index t a * S400x64.size a ≤ (i a).val ∧ (i a).val < win3_3.index t a * S400x64.size a + S400x64.size a := by
  show i ∈ ((View.whole main_v9).slice (win3_3.rect t)).set ↔ _
  rw [View.set_slice_whole, Rect.mem_set_unit]
  exact Iff.rfl

/-- Row `r` lies in the block of point `r / 400`. -/
theorem cover (i : S10000x64.Idx) : ∃ t : Fin cfg3.N, (cfg3.win 3).flush t = true ∧ i ∈ ((cfg3.win 3).blk t).view.set := by
  have hi0 : (i 0).val < 10000 := (i 0).isLt
  have hi1 : (i 1).val < 64 := (i 1).isLt
  have hN : (i 0).val / 400 < cfg3.N := by show (i 0).val / 400 < 25; omega
  refine ⟨⟨(i 0).val / 400, hN⟩, flush3_3 _, ?_⟩
  rw [mem_blk]
  obtain ⟨e0, e1, e2, e3, e4, e5, e6, e7⟩ := idx_facts ⟨(i 0).val / 400, hN⟩
  intro a
  match a with
  | ⟨0, _⟩ => show win3_3.index ⟨(i 0).val / 400, hN⟩ (0 : Fin 2) * 400 ≤ (i 0).val ∧ (i 0).val < win3_3.index ⟨(i 0).val / 400, hN⟩ (0 : Fin 2) * 400 + 400; rw [e6]; show (i 0).val / 400 * 400 ≤ (i 0).val ∧ (i 0).val < (i 0).val / 400 * 400 + 400; omega
  | ⟨1, _⟩ => show win3_3.index ⟨(i 0).val / 400, hN⟩ (1 : Fin 2) * 64 ≤ (i 1).val ∧ (i 1).val < win3_3.index ⟨(i 0).val / 400, hN⟩ (1 : Fin 2) * 64 + 64; rw [e7]; omega

/-- THE RESULT the launch leaves: the third layer of the arrays it found. -/
theorem final (c : Dev nD) : (dat3 V c).arrAt 3 cfg3.N = Gcn.conv (adj V c) (supp V c) (bias V c) :=
  (dat3 V c).arrAt_eq_of_cover 3 (Gcn.conv (adj V c) (supp V c) (bias V c)) (fun t _ => flushed_eq V c t) cover

end Cert.KernelIdeal.Region3

end
-- ==== Proof.KernelValue.lean ====
/-
  The blocked program's result array is the network of the specification.

  The buffer contents are followed from the launch through the host operations and the four launches. The host
  operations only narrow the three weight matrices (the identity on the extended reals) and view each bias vector as a
  one-row matrix. The first launch leaves `x · W1`; the second leaves a copy of the adjacency matrix and
  `max (adj · (x · W1) + b1, 0) · W2`; the third `max (adj · (that) + b2, 0) · W3`; the last `adj · (that) + b3`. Every
  launch finds each array it reads exactly as an earlier segment left it, because no other segment writes it.
-/
import proofs.«131636_g4973572128804_cont_8to1_c_232_4_alg».proof.Proof.Region0
import proofs.«131636_g4973572128804_cont_8to1_c_232_4_alg».proof.Proof.Region1
import proofs.«131636_g4973572128804_cont_8to1_c_232_4_alg».proof.Proof.Region2
import proofs.«131636_g4973572128804_cont_8to1_c_232_4_alg».proof.Proof.Region3

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- A bias vector as a function of the column. -/
abbrev col {h : Nat} (b : (⟨1, ![h]⟩ : Shape).Idx → EReal) : Fin h → EReal := fun q => b (ix1 q)

/-! ## After the host operations -/

theorem host_arg0 (c : Dev nD) : V1 m ρ c main_arg0 = m ((c : Thread nD τ).loc main_arg0) := by
  show StableHlo.after hostOps0 (W0 m ρ c) (Proc.devRef .tc main_arg0) = _
  after_results
theorem host_arg1 (c : Dev nD) : V1 m ρ c main_arg1 = m ((c : Thread nD τ).loc main_arg1) := by
  show StableHlo.after hostOps0 (W0 m ρ c) (Proc.devRef .tc main_arg1) = _
  after_results
/-- The narrowed first weights are the first weights. -/
theorem host_v0 (c : Dev nD) : V1 m ρ c main_v0 = m ((c : Thread nD τ).loc main_arg2) := by
  show StableHlo.after hostOps0 (W0 m ρ c) (Proc.devRef .tc main_v0) = _
  after_results; rfl
/-- The narrowed second weights are the second weights. -/
theorem host_v1 (c : Dev nD) : V1 m ρ c main_v1 = m ((c : Thread nD τ).loc main_arg4) := by
  show StableHlo.after hostOps0 (W0 m ρ c) (Proc.devRef .tc main_v1) = _
  after_results; rfl
/-- The narrowed third weights are the third weights. -/
theorem host_v2 (c : Dev nD) : V1 m ρ c main_v2 = m ((c : Thread nD τ).loc main_arg6) := by
  show StableHlo.after hostOps0 (W0 m ρ c) (Proc.devRef .tc main_v2) = _
  after_results; rfl
/-- The first bias as a one-row matrix. -/
theorem host_v3 (c : Dev nD) : V1 m ρ c main_v3 = shapeCast S1x128 (m ((c : Thread nD τ).loc main_arg3)) shapeCasts_S128_S1x128 := by
  show StableHlo.after hostOps0 (W0 m ρ c) (Proc.devRef .tc main_v3) = _
  after_results; rfl
/-- The second bias as a one-row matrix. -/
theorem host_v4 (c : Dev nD) : V1 m ρ c main_v4 = shapeCast S1x64 (m ((c : Thread nD τ).loc main_arg5)) shapeCasts_S64_S1x64 := by
  show StableHlo.after hostOps0 (W0 m ρ c) (Proc.devRef .tc main_v4) = _
  after_results; rfl
/-- The third bias as a one-row matrix. -/
theorem host_v5 (c : Dev nD) : V1 m ρ c main_v5 = shapeCast S1x64 (m ((c : Thread nD τ).loc main_arg7)) shapeCasts_S64_S1x64 := by
  show StableHlo.after hostOps0 (W0 m ρ c) (Proc.devRef .tc main_v5) = _
  after_results; rfl

/-- A vector viewed as a one-row matrix, read at column `j` of its row. -/
theorem row_apply {h : Nat} (v : (⟨1, ![h]⟩ : Shape).Idx → EReal) (hc : (⟨1, ![h]⟩ : Shape).ShapeCasts ⟨2, ![1, h]⟩) (j : Fin h) :
    shapeCast ⟨2, ![1, h]⟩ v hc (ix2 (0 : Fin 1) j) = v (ix1 j) := by
  refine (shapeCast_addUnit_apply (![h]) v hc (ix2 (0 : Fin 1) j)).trans (congrArg v ?_)
  funext a; match a with | ⟨0, _⟩ => rfl

/-! ## After the first launch -/

theorem r0_arg1 (c : Dev nD) : V2 m ρ c main_arg1 = m ((c : Thread nD τ).loc main_arg1) :=
  (W2_of_ne m ρ c main_arg1 (by decide)).trans (host_arg1 m ρ c)
theorem r0_v1 (c : Dev nD) : V2 m ρ c main_v1 = m ((c : Thread nD τ).loc main_arg4) :=
  (W2_of_ne m ρ c main_v1 (by decide)).trans (host_v1 m ρ c)
theorem r0_v2 (c : Dev nD) : V2 m ρ c main_v2 = m ((c : Thread nD τ).loc main_arg6) :=
  (W2_of_ne m ρ c main_v2 (by decide)).trans (host_v2 m ρ c)
theorem r0_v3 (c : Dev nD) : V2 m ρ c main_v3 = shapeCast S1x128 (m ((c : Thread nD τ).loc main_arg3)) shapeCasts_S128_S1x128 :=
  (W2_of_ne m ρ c main_v3 (by decide)).trans (host_v3 m ρ c)
theorem r0_v4 (c : Dev nD) : V2 m ρ c main_v4 = shapeCast S1x64 (m ((c : Thread nD τ).loc main_arg5)) shapeCasts_S64_S1x64 :=
  (W2_of_ne m ρ c main_v4 (by decide)).trans (host_v4 m ρ c)
theorem r0_v5 (c : Dev nD) : V2 m ρ c main_v5 = shapeCast S1x64 (m ((c : Thread nD τ).loc main_arg7)) shapeCasts_S64_S1x64 :=
  (W2_of_ne m ρ c main_v5 (by decide)).trans (host_v5 m ρ c)
/-- The first support array: the features times the first weights. -/
theorem r0_v6 (c : Dev nD) : V2 m ρ c main_v6 = Gcn.mm (m ((c : Thread nD τ).loc main_arg0)) (m ((c : Thread nD τ).loc main_arg2)) := by
  refine (W2_arr m ρ c 2).trans ((Region0.final (V1 m ρ) c).trans ?_)
  show Gcn.mm (V1 m ρ c main_arg0) (V1 m ρ c main_v0) = _
  rw [host_arg0, host_v0]

/-! ## After the second launch -/

theorem r1_v2 (c : Dev nD) : V3 m ρ c main_v2 = m ((c : Thread nD τ).loc main_arg6) :=
  (W3_of_ne m ρ c main_v2 (by decide)).trans (r0_v2 m ρ c)
theorem r1_v4 (c : Dev nD) : V3 m ρ c main_v4 = shapeCast S1x64 (m ((c : Thread nD τ).loc main_arg5)) shapeCasts_S64_S1x64 :=
  (W3_of_ne m ρ c main_v4 (by decide)).trans (r0_v4 m ρ c)
theorem r1_v5 (c : Dev nD) : V3 m ρ c main_v5 = shapeCast S1x64 (m ((c : Thread nD τ).loc main_arg7)) shapeCasts_S64_S1x64 :=
  (W3_of_ne m ρ c main_v5 (by decide)).trans (r0_v5 m ρ c)
/-- The adjacency copy is the adjacency matrix. -/
theorem r1_v7_1 (c : Dev nD) : V3 m ρ c main_v7_1 = m ((c : Thread nD τ).loc main_arg1) :=
  (W3_arr m ρ c 5).trans ((Region1.final5 (V2 m ρ) c).trans (r0_arg1 m ρ c))
/-- The second support array: the first layer times the second weights. -/
theorem r1_v7_0 (c : Dev nD) : V3 m ρ c main_v7_0
    = Gcn.mm (Gcn.relu (Gcn.conv (m ((c : Thread nD τ).loc main_arg1)) (Gcn.mm (m ((c : Thread nD τ).loc main_arg0)) (m ((c : Thread nD τ).loc main_arg2))) (col (m ((c : Thread nD τ).loc main_arg3))))) (m ((c : Thread nD τ).loc main_arg4)) := by
  refine (W3_arr m ρ c 4).trans ((Region1.final4 (V2 m ρ) c).trans ?_)
  show Gcn.mm (Gcn.relu (Gcn.conv (V2 m ρ c main_arg1) (V2 m ρ c main_v6) (fun j => V2 m ρ c main_v3 (ix2 (0 : Fin 1) j)))) (V2 m ρ c main_v1) = _
  rw [r0_arg1, r0_v6, r0_v1, r0_v3]
  refine congrArg (fun b => Gcn.mm (Gcn.relu (Gcn.conv _ _ b)) _) (funext fun j => ?_)
  exact row_apply _ _ j

/-! ## After the third launch -/

theorem r2_v5 (c : Dev nD) : V4 m ρ c main_v5 = shapeCast S1x64 (m ((c : Thread nD τ).loc main_arg7)) shapeCasts_S64_S1x64 :=
  (W4_of_ne m ρ c main_v5 (by decide)).trans (r1_v5 m ρ c)
/-- The third launch reads the adjacency copy and leaves it as it was. -/
theorem r2_v7_1 (c : Dev nD) : V4 m ρ c main_v7_1 = m ((c : Thread nD τ).loc main_arg1) :=
  (W4_arr m ρ c 0).trans (((dat2 (V3 m ρ) c).arrAt_in 0 rfl _).trans ((A_eq2 (V3 m ρ) c 0).trans (r1_v7_1 m ρ c)))
/-- The third support array: the second layer times the third weights. -/
theorem r2_v8 (c : Dev nD) : V4 m ρ c main_v8
    = Gcn.mm (Gcn.relu (Gcn.conv (m ((c : Thread nD τ).loc main_arg1))
        (Gcn.mm (Gcn.relu (Gcn.conv (m ((c : Thread nD τ).loc main_arg1)) (Gcn.mm (m ((c : Thread nD τ).loc main_arg0)) (m ((c : Thread nD τ).loc main_arg2))) (col (m ((c : Thread nD τ).loc main_arg3))))) (m ((c : Thread nD τ).loc main_arg4)))
        (col (m ((c : Thread nD τ).loc main_arg5))))) (m ((c : Thread nD τ).loc main_arg6)) := by
  refine (W4_arr m ρ c 4).trans ((Region2.final (V3 m ρ) c).trans ?_)
  show Gcn.mm (Gcn.relu (Gcn.conv (V3 m ρ c main_v7_1) (V3 m ρ c main_v7_0) (fun j => V3 m ρ c main_v4 (ix2 (0 : Fin 1) j)))) (V3 m ρ c main_v2) = _
  rw [r1_v7_1, r1_v7_0, r1_v2, r1_v4]
  refine congrArg (fun b => Gcn.mm (Gcn.relu (Gcn.conv _ _ b)) _) (funext fun j => ?_)
  exact row_apply _ _ j

/-! ## After the last launch -/

/-- THE RESULT ARRAY at the last boundary is the network of the eight arguments as launched. -/
theorem result_eq (c : Dev nD) : W5 m ρ c (Proc.devRef .tc main_v9)
    = Gcn.gcn (m ((c : Thread nD τ).loc main_arg0)) (m ((c : Thread nD τ).loc main_arg1)) (m ((c : Thread nD τ).loc main_arg2)) (col (m ((c : Thread nD τ).loc main_arg3))) (m ((c : Thread nD τ).loc main_arg4)) (col (m ((c : Thread nD τ).loc main_arg5))) (m ((c : Thread nD τ).loc main_arg6)) (col (m ((c : Thread nD τ).loc main_arg7))) := by
  refine (W5_arr m ρ c 3).trans ((Region3.final (V4 m ρ) c).trans ?_)
  show Gcn.conv (V4 m ρ c main_v7_1) (V4 m ρ c main_v8) (fun j => V4 m ρ c main_v5 (ix2 (0 : Fin 1) j)) = _
  rw [r2_v7_1, r2_v8, r2_v5]
  unfold Gcn.gcn
  refine congrArg (fun b => Gcn.conv _ _ b) (funext fun j => ?_)
  exact row_apply _ _ j

end Cert.KernelIdeal.Chain

end
-- ==== Proof.Reference.lean ====
/-
  The reference computes the network of the specification, stage by stage.

  Each `dot_general` is a matrix product (entry `(r, q)` the sum over `k` of the left operand at `(r, k)` times the
  right at `(k, q)`); a bias is broadcast from `[h]` through `[1, h]` to every row, so at `(r, q)` it is `b q`; the
  rectifier is the maximum with the broadcast zero. Composing the stages gives `Gcn.gcn` of the eight arguments.
-/
import proofs.«131636_g4973572128804_cont_8to1_c_232_4_alg».proof.Proof.Gen.ReferenceIdeal.Run
import proofs.«131636_g4973572128804_cont_8to1_c_232_4_alg».proof.Proof.Gen.ReferenceIdeal.Read
import proofs.«131636_g4973572128804_cont_8to1_c_232_4_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable (x0 : Gcn.Mat 10000 128) (x1 : Gcn.Mat 10000 10000) (x2 : Gcn.Mat 128 128) (x3 : S128.Idx → EReal)
  (x4 : Gcn.Mat 128 64) (x5 : S64.Idx → EReal) (x6 : Gcn.Mat 64 64) (x7 : S64.Idx → EReal)

/-- A bias vector as a function of the column. -/
abbrev col {h : Nat} (b : (⟨1, ![h]⟩ : Shape).Idx → EReal) : Fin h → EReal := fun q => b (ix1 q)

/-- The features times the first weights. -/
theorem v0_eq : val_main_v0 (F := Ideal) x0 x2 = Gcn.mm x0 x2 := by
  funext i
  rw [val_main_v0_apply]
  exact Finset.sum_congr rfl fun k _ => by
    congr 2 <;> funext a <;> match a with | ⟨0, _⟩ => rfl | ⟨1, _⟩ => rfl

/-- The first neighbour sum. -/
theorem v1_eq : val_main_v1 (F := Ideal) x0 x1 x2 = Gcn.mm x1 (Gcn.mm x0 x2) := by
  funext i
  rw [val_main_v1_apply, v0_eq]
  exact Finset.sum_congr rfl fun k _ => by
    congr 2 <;> funext a <;> match a with | ⟨0, _⟩ => rfl | ⟨1, _⟩ => rfl

/-- The first layer before the rectifier. -/
theorem v4_eq : val_main_v4 (F := Ideal) x0 x1 x2 x3 = Gcn.conv x1 (Gcn.mm x0 x2) (col x3) := by
  funext i
  rw [val_main_v4_apply, v1_eq, val_main_v3_apply, val_main_v2_apply]
  show _ + _ = _ + _
  congr 2
  funext a; match a with | ⟨0, _⟩ => rfl

/-- The first layer. -/
theorem v5_eq : val_main_v5 (F := Ideal) x0 x1 x2 x3 = Gcn.relu (Gcn.conv x1 (Gcn.mm x0 x2) (col x3)) := by
  funext i
  rw [val_main_v5_apply, v4_eq, val_main_call0_v0_apply, val_main_call0_cst_apply]
  show max _ (Ideal.ofBits .f32 0x00000000#32) = max _ 0
  rw [Ideal.ofBits_zero_f32]

/-- The first layer times the second weights. -/
theorem v6_eq : val_main_v6 (F := Ideal) x0 x1 x2 x3 x4 = Gcn.mm (Gcn.relu (Gcn.conv x1 (Gcn.mm x0 x2) (col x3))) x4 := by
  funext i
  rw [val_main_v6_apply, v5_eq]
  exact Finset.sum_congr rfl fun k _ => by
    congr 2 <;> funext a <;> match a with | ⟨0, _⟩ => rfl | ⟨1, _⟩ => rfl

/-- The second neighbour sum. -/
theorem v7_eq : val_main_v7 (F := Ideal) x0 x1 x2 x3 x4 = Gcn.mm x1 (Gcn.mm (Gcn.relu (Gcn.conv x1 (Gcn.mm x0 x2) (col x3))) x4) := by
  funext i
  rw [val_main_v7_apply, v6_eq]
  exact Finset.sum_congr rfl fun k _ => by
    congr 2 <;> funext a <;> match a with | ⟨0, _⟩ => rfl | ⟨1, _⟩ => rfl

/-- The second layer before the rectifier. -/
theorem v10_eq : val_main_v10 (F := Ideal) x0 x1 x2 x3 x4 x5
    = Gcn.conv x1 (Gcn.mm (Gcn.relu (Gcn.conv x1 (Gcn.mm x0 x2) (col x3))) x4) (col x5) := by
  funext i
  rw [val_main_v10_apply, v7_eq, val_main_v9_apply, val_main_v8_apply]
  show _ + _ = _ + _
  congr 2
  funext a; match a with | ⟨0, _⟩ => rfl

/-- The second layer. -/
theorem v11_eq : val_main_v11 (F := Ideal) x0 x1 x2 x3 x4 x5
    = Gcn.relu (Gcn.conv x1 (Gcn.mm (Gcn.relu (Gcn.conv x1 (Gcn.mm x0 x2) (col x3))) x4) (col x5)) := by
  funext i
  rw [val_main_v11_apply, v10_eq, val_main_call1_v0_apply, val_main_call1_cst_apply]
  show max _ (Ideal.ofBits .f32 0x00000000#32) = max _ 0
  rw [Ideal.ofBits_zero_f32]

/-- The second layer times the third weights. -/
theorem v12_eq : val_main_v12 (F := Ideal) x0 x1 x2 x3 x4 x5 x6
    = Gcn.mm (Gcn.relu (Gcn.conv x1 (Gcn.mm (Gcn.relu (Gcn.conv x1 (Gcn.mm x0 x2) (col x3))) x4) (col x5))) x6 := by
  funext i
  rw [val_main_v12_apply, v11_eq]
  exact Finset.sum_congr rfl fun k _ => by
    congr 2 <;> funext a <;> match a with | ⟨0, _⟩ => rfl | ⟨1, _⟩ => rfl

/-- The third neighbour sum. -/
theorem v13_eq : val_main_v13 (F := Ideal) x0 x1 x2 x3 x4 x5 x6
    = Gcn.mm x1 (Gcn.mm (Gcn.relu (Gcn.conv x1 (Gcn.mm (Gcn.relu (Gcn.conv x1 (Gcn.mm x0 x2) (col x3))) x4) (col x5))) x6) := by
  funext i
  rw [val_main_v13_apply, v12_eq]
  exact Finset.sum_congr rfl fun k _ => by
    congr 2 <;> funext a <;> match a with | ⟨0, _⟩ => rfl | ⟨1, _⟩ => rfl

/-- THE REFERENCE'S RESULT is the network of the specification. -/
theorem v16_eq : val_main_v16 (F := Ideal) x0 x1 x2 x3 x4 x5 x6 x7 = Gcn.gcn x0 x1 x2 (col x3) x4 (col x5) x6 (col x7) := by
  funext i
  rw [val_main_v16_apply, v13_eq, val_main_v15_apply, val_main_v14_apply]
  show _ + _ = _ + _
  congr 2
  funext a; match a with | ⟨0, _⟩ => rfl

end Cert.ReferenceIdeal.RefValue

end
-- ==== Proof.lean ====
/-
  A three-layer graph convolution over a dense adjacency matrix, computed in four blocked launches, against the
  plain composition `adj · (h · W) + b` three times with a rectifier after the first two.

  Over the extended reals the narrowing of the weights and of the intermediate arrays is the identity, a product into
  a zero accumulator is the plain sum of products, and each launch computes, a block of rows at a time, exactly the
  rows of the whole-array expression: rows of `x · W1`; rows of `max (adj · s1 + b1, 0) · W2` beside a copy of the
  adjacency rows; rows of `max (adj · s2 + b2, 0) · W3`; rows of `adj · s3 + b3`. The blocks of each launch cover all
  rows, so the program's result is `Gcn.gcn` of its arguments (Proof/KernelValue.lean over Proof/Region0–3.lean), and
  the reference's composed term is the same function (Proof/Reference.lean). No sum is re-ordered and no factor is
  moved across a sum, so the finiteness of the inputs is never used.
-/
import proofs.«131636_g4973572128804_cont_8to1_c_232_4_alg».proof.Defs
import proofs.«131636_g4973572128804_cont_8to1_c_232_4_alg».proof.Proof.Gen.Kernel
import proofs.«131636_g4973572128804_cont_8to1_c_232_4_alg».proof.Proof.Gen.Kernel.Skeleton
import proofs.«131636_g4973572128804_cont_8to1_c_232_4_alg».proof.Proof.Gen.Kernel.Launch
import proofs.«131636_g4973572128804_cont_8to1_c_232_4_alg».proof.Proof.Gen.Kernel.Points
import proofs.«131636_g4973572128804_cont_8to1_c_232_4_alg».proof.Proof.Gen.Kernel.Frame
import proofs.«131636_g4973572128804_cont_8to1_c_232_4_alg».proof.Proof.Gen.KernelIdeal
import proofs.«131636_g4973572128804_cont_8to1_c_232_4_alg».proof.Proof.Gen.KernelIdeal.Skeleton
import proofs.«131636_g4973572128804_cont_8to1_c_232_4_alg».proof.Proof.Gen.KernelIdeal.Launch
import proofs.«131636_g4973572128804_cont_8to1_c_232_4_alg».proof.Proof.Gen.KernelIdeal.Points
import proofs.«131636_g4973572128804_cont_8to1_c_232_4_alg».proof.Proof.Gen.KernelIdeal.Frame
import proofs.«131636_g4973572128804_cont_8to1_c_232_4_alg».proof.Proof.Gen.ReferenceIdeal
import proofs.«131636_g4973572128804_cont_8to1_c_232_4_alg».proof.Proof.Gen.ReferenceIdeal.Run
import proofs.«131636_g4973572128804_cont_8to1_c_232_4_alg».proof.Proof.Gen.ReferenceIdeal.Read
import proofs.«131636_g4973572128804_cont_8to1_c_232_4_alg».proof.Proof.Gen.Pre_finite_inputs
import proofs.«131636_g4973572128804_cont_8to1_c_232_4_alg».proof.Proof.KernelRun
import proofs.«131636_g4973572128804_cont_8to1_c_232_4_alg».proof.Proof.KernelValue
import proofs.«131636_g4973572128804_cont_8to1_c_232_4_alg».proof.Proof.Reference
import Idealize.ShloMosaic.Adequacy
import Idealize.ShloMosaic.Init

noncomputable section

namespace Cert.Proof

open Idealize.ShloMosaic Idealize.ShloMosaic.TcCoe Idealize.SL.Sem

/-- The program as printed runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the specification applied to the arguments, which agree. -/
theorem algebraic : Cert.algebraic_KernelIdeal_ReferenceIdeal := by
  intro m ρ m' ρ' _ hagree
  refine ⟨fun c => Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Chain.col (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (Cert.KernelIdeal.Chain.col (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (Cert.KernelIdeal.Chain.col (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.KernelIdeal.Chain.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.v16_eq]
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
